-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S128x12 : Shape := ⟨2, ![128, 12]⟩
abbrev S768x896 : Shape := ⟨2, ![768, 896]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S128x12 : S_.BroadcastsInDim S128x12 (![] : Fin 0 → Fin S128x12.rank)
  reducesTo_S128x12_S_d0_1 : S128x12.ReducesTo [0, 1] S_
  bcast_S_S768x896 : S_.BroadcastsInDim S768x896 (![] : Fin 0 → Fin S768x896.rank)
  reducesTo_S768x896_S_d0_1 : S768x896.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x1024x768 .f32) (main_arg1 : FVec F S128x12 .f32) (main_arg2 : FVec F S768x896 .f32) (main_arg3 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S128x12 .f32 := Host.absf main_arg1
  let main_cst_0 : FVec F S_ .f32 := constant S_ .f32 0x7F800000#32
  let main_v5 : FVec F S128x12 .f32 := broadcastInDim S128x12 ![] bcast_S_S128x12 main_cst_0
  let main_v6 : IVec S128x12 1 := cmpf .olt main_v4 main_v5
  let main_c_1 : IVec S_ 1 := constantI S_ 1 1#1
  let main_v7 : IVec S_ 1 := (fun x v => Host.reduce IntOp.andi x v reducesTo_S128x12_S_d0_1 h_S_) main_v6 main_c_1
  let main_v8 : IVec S_ 1 := andi main_v3 main_v7
  let main_v9 : FVec F S768x896 .f32 := Host.absf main_arg2
  let main_cst_2 : FVec F S_ .f32 := constant S_ .f32 0x7F800000#32
  let main_v10 : FVec F S768x896 .f32 := broadcastInDim S768x896 ![] bcast_S_S768x896 main_cst_2
  let main_v11 : IVec S768x896 1 := cmpf .olt main_v9 main_v10
  let main_c_3 : IVec S_ 1 := constantI S_ 1 1#1
  let main_v12 : IVec S_ 1 := (fun x v => Host.reduce IntOp.andi x v reducesTo_S768x896_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x1024x768 : Shape := ⟨3, ![8, 1024, 768]⟩
abbrev S128x12 : Shape := ⟨2, ![128, 12]⟩
abbrev S768x896 : Shape := ⟨2, ![768, 896]⟩
abbrev S768 : Shape := ⟨1, ![768]⟩
abbrev S12x128 : Shape := ⟨2, ![12, 128]⟩
abbrev S768x768 : Shape := ⟨2, ![768, 768]⟩
abbrev S768x128 : Shape := ⟨2, ![768, 128]⟩
abbrev S128x768 : Shape := ⟨2, ![128, 768]⟩
abbrev S12x768 : Shape := ⟨2, ![12, 768]⟩
abbrev S1x768 : Shape := ⟨2, ![1, 768]⟩
abbrev S8192x768 : Shape := ⟨2, ![8192, 768]⟩
abbrev S8192x12x768 : Shape := ⟨3, ![8192, 12, 768]⟩
abbrev S128x12x768 : Shape := ⟨3, ![128, 12, 768]⟩
abbrev S128x1x768 : Shape := ⟨3, ![128, 1, 768]⟩
abbrev S1x12x768 : Shape := ⟨3, ![1, 12, 768]⟩
abbrev S8x1024x12x768 : Shape := ⟨4, ![8, 1024, 12, 768]⟩

abbrev nBuf : Space → Nat
  | .hbm => 17
  | .vmem => 6
  | .smem => 0
  | _ => 0

abbrev bufTy : (tb : Table) → Fin (tcTables nBuf tb) → BufTy
  | .hbm, ⟨0, _⟩ => ⟨S8x1024x768, .f32⟩
  | .hbm, ⟨1, _⟩ => ⟨S128x12, .f32⟩
  | .hbm, ⟨2, _⟩ => ⟨S768x896, .f32⟩
  | .hbm, ⟨3, _⟩ => ⟨S768, .f32⟩
  | .hbm, ⟨4, _⟩ => ⟨S12x128, .f32⟩
  | .hbm, ⟨5, _⟩ => ⟨S768x768, .f32⟩
  | .hbm, ⟨6, _⟩ => ⟨S768x128, .f32⟩
  | .hbm, ⟨7, _⟩ => ⟨S128x768, .f32⟩
  | .hbm, ⟨8, _⟩ => ⟨S12x768, .f32⟩
  | .hbm, ⟨9, _⟩ => ⟨S1x768, .f32⟩
  | .hbm, ⟨10, _⟩ => ⟨S12x768, .f32⟩
  | .hbm, ⟨11, _⟩ => ⟨S12x768, .f32⟩
  | .hbm, ⟨12, _⟩ => ⟨S768x768, .f32⟩
  | .hbm, ⟨13, _⟩ => ⟨S768x768, .bf16⟩
  | .hbm, ⟨14, _⟩ => ⟨S8192x768, .f32⟩
  | .hbm, ⟨15, _⟩ => ⟨S8192x12x768, .f32⟩
  | .hbm, ⟨16, _⟩ => ⟨S8x1024x12x768, .f32⟩
  | .local _ .vmem, ⟨0, _⟩ => ⟨S128x768, .f32⟩
  | .local _ .vmem, ⟨1, _⟩ => ⟨S128x768, .f32⟩
  | .local _ .vmem, ⟨2, _⟩ => ⟨S768x768, .bf16⟩
  | .local _ .vmem, ⟨3, _⟩ => ⟨S12x768, .f32⟩
  | .local _ .vmem, ⟨4, _⟩ => ⟨S128x12x768, .f32⟩
  | .local _ .vmem, ⟨5, _⟩ => ⟨S128x12x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x12x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x12_S12x128 : S128x12.ShapeCasts S12x128
  slices_S768x896_S768x768_0_0 : S768x896.Slices ![0, 0] S768x768
  slices_S768x896_S768x128_0_768 : S768x896.Slices ![0, 768] S768x128
  transposes_S768x128_S128x768_1_0 : S768x128.Transposes [1, 0] S128x768
  bcast_S768_S1x768_1 : S768.BroadcastsInDim S1x768 (![1] : Fin 1 → Fin S1x768.rank)
  bcast_S1x768_S12x768_0_1 : S1x768.BroadcastsInDim S12x768 (![0, 1] : Fin 2 → Fin S12x768.rank)
  transposes_S768x768_S768x768_1_0 : S768x768.Transposes [1, 0] S768x768
  bitsLt_bf16_f32 : FTy.bits .bf16 < FTy.bits .f32
  shapeCasts_S8x1024x768_S8192x768 : S8x1024x768.ShapeCasts S8192x768
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S12x768_S12x768_0_0 : ∀ a, (![0, 0] : Fin 2 → Nat) a + S12x768.size a ≤ S12x768.size a
  h_S12x768 : 0 < S12x768.numel
  shapeCasts_S12x768_S12x768 : S12x768.ShapeCasts S12x768
  shapeCasts_S128x768_S128x1x768 : S128x768.ShapeCasts S128x1x768
  shapeCasts_S12x768_S1x12x768 : S12x768.ShapeCasts S1x12x768
  broadcasts_S128x1x768_S128x12x768 : S128x1x768.Broadcasts S128x12x768
  broadcasts_S1x12x768_S128x12x768 : S1x12x768.Broadcasts S128x12x768
  inb_S128x12x768_S128x12x768_0_0_0 : ∀ a, (![0, 0, 0] : Fin 3 → Nat) a + S128x12x768.size a ≤ S128x12x768.size a
  h_S128x12x768 : 0 < S128x12x768.numel
  shapeCasts_S8192x12x768_S8x1024x12x768 : S8192x12x768.ShapeCasts S8x1024x12x768
  dot_S12x128_S128x768_S12x768_1_0_0_1_n_n_wf : DotDims.WF S12x128 S128x768 S12x768 [1] [0] [0] [1] [] []
  dot_S128x768_S768x768_S128x768_1_0_0_1_n_n_wf : DotDims.WF S128x768 S768x768 S128x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S8192x768.size a
  hwx0_0 : ∀ i : grid0.Coords, EltTy.bits .f32 = 32 ∨ (Rect.block (s := S8192x768) S128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x768.size a ≤ S12x768.size a
  hwx0_2 : ∀ i : grid0.Coords, EltTy.bits .f32 = 32 ∨ (Rect.block (s := S12x768) S12x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x12x768.size a ≤ S8192x12x768.size a
  hwx0_3 : ∀ i : grid0.Coords, EltTy.bits .f32 = 32 ∨ (Rect.block (s := S8192x12x768) S128x12x768.size (cc0_transform_3 i) (hinb0_3 i)).WholeWords (EltTy.packing .f32)

variable [Facts₀]

def dot_S12x128_S128x768_S12x768_1_0_0_1_n_n : DotDims S12x128 S128x768 S12x768 where
  lhsContracting := [1]
  rhsContracting := [0]
  lhsNonContracting := [0]
  rhsNonContracting := [1]
  lhsBatch := []
  rhsBatch := []
  wf := dot_S12x128_S128x768_S12x768_1_0_0_1_n_n_wf
def dot_S128x768_S768x768_S128x768_1_0_0_1_n_n : DotDims S128x768 S768x768 S128x768 where
  lhsContracting := [1]
  rhsContracting := [0]
  lhsNonContracting := [0]
  rhsNonContracting := [1]
  lhsBatch := []
  rhsBatch := []
  wf := dot_S128x768_S768x768_S128x768_1_0_0_1_n_n_wf

abbrev win0_0 : Pipeline.Window sig grid0 :=
  Pipeline.Window.ofSpec (Memref.whole main_v10) S128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S12x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x12x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x768 : Shape := ⟨3, ![8, 1024, 768]⟩
abbrev S128x12 : Shape := ⟨2, ![128, 12]⟩
abbrev S768x896 : Shape := ⟨2, ![768, 896]⟩
abbrev S768 : Shape := ⟨1, ![768]⟩
abbrev S12x128 : Shape := ⟨2, ![12, 128]⟩
abbrev S768x768 : Shape := ⟨2, ![768, 768]⟩
abbrev S768x128 : Shape := ⟨2, ![768, 128]⟩
abbrev S12x768 : Shape := ⟨2, ![12, 768]⟩
abbrev S8x1024x1x768 : Shape := ⟨4, ![8, 1024, 1, 768]⟩
abbrev S1x1x12x768 : Shape := ⟨4, ![1, 1, 12, 768]⟩
abbrev S8x1024x12x768 : Shape := ⟨4, ![8, 1024, 12, 768]⟩
abbrev S1x1x1x768 : Shape := ⟨4, ![1, 1, 1, 768]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S128x12, .f32⟩
  | .hbm, ⟨2, _⟩ => ⟨S768x896, .f32⟩
  | .hbm, ⟨3, _⟩ => ⟨S768, .f32⟩
  | .hbm, ⟨4, _⟩ => ⟨S12x128, .f32⟩
  | .hbm, ⟨5, _⟩ => ⟨S768x768, .f32⟩
  | .hbm, ⟨6, _⟩ => ⟨S768x128, .f32⟩
  | .hbm, ⟨7, _⟩ => ⟨S8x1024x768, .f32⟩
  | .hbm, ⟨8, _⟩ => ⟨S12x768, .f32⟩
  | .hbm, ⟨9, _⟩ => ⟨S8x1024x1x768, .f32⟩
  | .hbm, ⟨10, _⟩ => ⟨S1x1x12x768, .f32⟩
  | .hbm, ⟨11, _⟩ => ⟨S8x1024x12x768, .f32⟩
  | .hbm, ⟨12, _⟩ => ⟨S8x1024x12x768, .f32⟩
  | .hbm, ⟨13, _⟩ => ⟨S8x1024x12x768, .f32⟩
  | .hbm, ⟨14, _⟩ => ⟨S1x1x1x768, .f32⟩
  | .hbm, ⟨15, _⟩ => ⟨S8x1024x12x768, .f32⟩
  | .hbm, ⟨16, _⟩ => ⟨S8x1024x12x768, .f32⟩
  | .hbm, ⟨17, _⟩ => ⟨S_, .f32⟩
  | .hbm, ⟨18, _⟩ => ⟨S8x1024x12x768, .f32⟩
  | .hbm, ⟨19, _⟩ => ⟨S8x1024x12x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_cst : Ref sig .tc := ⟨.hbm, 17, rfl⟩
abbrev main_call0_v0 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  shapeCasts_S128x12_S12x128 : S128x12.ShapeCasts S12x128
  slices_S768x896_S768x768_0_0 : S768x896.Slices ![0, 0] S768x768
  slices_S768x896_S768x128_0_768 : S768x896.Slices ![0, 768] S768x128
  bcast_S8x1024x768_S8x1024x1x768_0_1_3 : S8x1024x768.BroadcastsInDim S8x1024x1x768 (![0, 1, 3] : Fin 3 → Fin S8x1024x1x768.rank)
  bcast_S12x768_S1x1x12x768_2_3 : S12x768.BroadcastsInDim S1x1x12x768 (![2, 3] : Fin 2 → Fin S1x1x12x768.rank)
  bcast_S8x1024x1x768_S8x1024x12x768_0_1_2_3 : S8x1024x1x768.BroadcastsInDim S8x1024x12x768 (![0, 1, 2, 3] : Fin 4 → Fin S8x1024x12x768.rank)
  bcast_S1x1x12x768_S8x1024x12x768_0_1_2_3 : S1x1x12x768.BroadcastsInDim S8x1024x12x768 (![0, 1, 2, 3] : Fin 4 → Fin S8x1024x12x768.rank)
  bcast_S768_S1x1x1x768_3 : S768.BroadcastsInDim S1x1x1x768 (![3] : Fin 1 → Fin S1x1x1x768.rank)
  bcast_S1x1x1x768_S8x1024x12x768_0_1_2_3 : S1x1x1x768.BroadcastsInDim S8x1024x12x768 (![0, 1, 2, 3] : Fin 4 → Fin S8x1024x12x768.rank)
  bcast_S_S8x1024x12x768 : S_.BroadcastsInDim S8x1024x12x768 (![] : Fin 0 → Fin S8x1024x12x768.rank)
  dot_S8x1024x768_S768x768_S8x1024x768_2_1_01_0_n_n_wf : DotDims.WF S8x1024x768 S768x768 S8x1024x768 [2] [1] [0, 1] [0] [] []
  dot_S12x128_S768x128_S12x768_1_1_0_0_n_n_wf : DotDims.WF S12x128 S768x128 S12x768 [1] [1] [0] [0] [] []

variable [Facts₀]

def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf
def dot_S12x128_S768x128_S12x768_1_1_0_0_n_n : DotDims S12x128 S768x128 S12x768 where
  lhsContracting := [1]
  rhsContracting := [1]
  lhsNonContracting := [0]
  rhsNonContracting := [0]
  lhsBatch := []
  rhsBatch := []
  wf := dot_S12x128_S768x128_S12x768_1_1_0_0_n_n_wf

class Facts : Prop extends Facts₀ where

variable [Facts]
-- ==== Proof.Spec.lean ====
/-
  WHAT BOTH PROGRAMS COMPUTE, as one function of the four argument arrays over the extended reals.

  Arguments: the hidden states `h` [8, 1024, 768]; the width table `q` [12, 128] (the width embedding after its row-major
  regrouping, taken here as given); the weight `W` [768, 896], whose columns 0 … 767 act on a hidden state and whose
  columns 768 … 895 act on a width row; the bias `b` [768]. For a token (s, l), a width w and an output feature o

      out (s, l, w, o) = max (hPart (s, l, o) + qPart (w, o) + b o, 0),
      hPart (s, l, o) = Σ_{d < 768} h (s, l, d) · W (o, d),      qPart (w, o) = Σ_{k < 128} q (w, k) · W (o, 768 + k).

  `rowsG` is the same with the tokens numbered r = s · 1024 + l in one axis of 8192 and with the three things the
  fused step is handed already prepared: the token rows `X` [8192, 768], the hidden part of the weight transposed
  `Wt` [768, 768], and the width term with the bias added `QB` [12, 768]:

      rowsG (r, w, o) = max (Σ_d X (r, d) · Wt (d, o) + QB (w, o), 0).

  The zero under the maximum is kept as the float word 0x00000000 on both sides and is never evaluated.
-/
import Idealize.ShloMosaic.PureOps.Ideal
import Idealize.ShloMosaic.Lib.ValueIdx

noncomputable section

open scoped BigOperators

namespace Cert.Spec

open Idealize.ShloMosaic Idealize.ShloMosaic.ValueIdx

/-- Column `d` of the weight's hidden part. -/
abbrev colH (d : Fin 768) : Fin 896 := ⟨d.val, by have := d.isLt; omega⟩
/-- Column `k` of the weight's width part: it starts after the 768 hidden columns. -/
abbrev colQ (k : Fin 128) : Fin 896 := ⟨768 + k.val, by have := k.isLt; omega⟩

/-- The hidden state of token (s, l) against row `o` of the weight's hidden part. -/
def hPart (h : (⟨3, ![8, 1024, 768]⟩ : Shape).Idx → EReal) (W : (⟨2, ![768, 896]⟩ : Shape).Idx → EReal)
    (s : Fin 8) (l : Fin 1024) (o : Fin 768) : EReal :=
  ∑ d : Fin 768, h (ix3 s l d) * W (ix2 o (colH d))

/-- Row `w` of the width table against row `o` of the weight's width part. -/
def qPart (q : (⟨2, ![12, 128]⟩ : Shape).Idx → EReal) (W : (⟨2, ![768, 896]⟩ : Shape).Idx → EReal)
    (w : Fin 12) (o : Fin 768) : EReal :=
  ∑ k : Fin 128, q (ix2 w k) * W (ix2 o (colQ k))

/-- The result, entry by entry. -/
def G (h : (⟨3, ![8, 1024, 768]⟩ : Shape).Idx → EReal) (q : (⟨2, ![12, 128]⟩ : Shape).Idx → EReal)
    (W : (⟨2, ![768, 896]⟩ : Shape).Idx → EReal) (b : (⟨1, ![768]⟩ : Shape).Idx → EReal) :
    (⟨4, ![8, 1024, 12, 768]⟩ : Shape).Idx → EReal := fun i =>
  max (hPart h W (i 0) (i 1) (i 3) + qPart q W (i 2) (i 3) + b (ix1 (i 3))) (Ideal.ofBits .f32 0x00000000#32)

/-- The fused step over the 8192 token rows: rows times the transposed weight, plus the prepared width term, clipped at zero. -/
def rowsG (X : (⟨2, ![8192, 768]⟩ : Shape).Idx → EReal) (Wt : (⟨2, ![768, 768]⟩ : Shape).Idx → EReal)
    (QB : (⟨2, ![12, 768]⟩ : Shape).Idx → EReal) : (⟨3, ![8192, 12, 768]⟩ : Shape).Idx → EReal := fun j =>
  max ((∑ d : Fin 768, X (ix2 (j 0) d) * Wt (ix2 d (j 2))) + QB (ix2 (j 1) (j 2))) (Ideal.ofBits .f32 0x00000000#32)

/-- The one law that joins the two programs: the fused step adds the bias to the width term first, the reference adds it
    last. Addition of extended reals is associative, with no finiteness needed. -/
theorem regroup (x y z : EReal) : x + (y + z) = x + y + z := (add_assoc x y z).symm

end Cert.Spec

end
-- ==== Proof.LibMidAxis.lean ====
/-
  LAYOUT OPERATIONS AROUND A MIDDLE AXIS, READ AT AN INDEX (general lemmas; they mention no program).

  A matrix [a, b] (one row per item) and a table [c, b] (one row per class) are combined over a new middle axis into
  [a, c, b]: the matrix is recast as [a, 1, b] and repeated along the middle axis, the table is recast as [1, c, b]
  (the library's leading-unit cast) and repeated along the leading axis. Around that sit two regroupings of the
  leading axis: an [a, b, c] array read as [n, c] with n = a · b (row i · b + j is the pair (i, j)), and an [n, w, c]
  array read back as [a, b, w, c]. And the two steps by which a vector [b] becomes the repeated row of [c, b].
  Every statement reads the operation at an index written by its coordinates and names the operand's entry it is.
-/
import Idealize.ShloMosaic.Lib.Pipeline.Value
import Idealize.ShloMosaic.Lib.ValueIdx

namespace Cert.Lib.MidAxis

open Idealize.ShloMosaic Idealize.ShloMosaic.ValueIdx

variable {α : Type}

/-- An `[a, b]` matrix recast as `[a, 1, b]` reads, at `(i, u, j)`, the matrix at `(i, j)`, whatever the unit coordinate. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, b]` array repeated along its middle axis to `[a, c, b]` reads, at `(i, w, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (w : Fin c) (j : Fin b) :
    broadcastTo ⟨3, ![a, c, b]⟩ v h (ix3 i w j) = v (ix3 i (0 : Fin 1) j) := by
  refine broadcastTo_apply v h (ix3 i w j) (ix3 i (0 : Fin 1) j) fun ax => ?_
  match ax with
  | ⟨0, _⟩ =>
    show i.val = if a = 1 then 0 else i.val
    split
    · have := i.isLt; omega
    · rfl
  | ⟨1, _⟩ =>
    show (0 : ℕ) = if (1 : ℕ) = 1 then 0 else w.val
    rw [if_pos rfl]
  | ⟨2, _⟩ =>
    show j.val = if b = 1 then 0 else j.val
    split
    · have := j.isLt; omega
    · rfl

/-- A `[1, c, b]` array repeated along its leading axis to `[a, c, b]` reads, at `(i, w, j)`, the operand at `(0, w, j)`. -/
theorem broadcastTo_1cb_acb_apply {a b c : ℕ} (v : (⟨3, ![1, c, b]⟩ : Shape).Idx → α)
    (h : (⟨3, ![1, c, b]⟩ : Shape).Broadcasts ⟨3, ![a, c, b]⟩) (i : Fin a) (w : Fin c) (j : Fin b) :
    broadcastTo ⟨3, ![a, c, b]⟩ v h (ix3 i w j) = v (ix3 (0 : Fin 1) w j) := by
  refine broadcastTo_apply v h (ix3 i w j) (ix3 (0 : Fin 1) w j) fun ax => ?_
  match ax with
  | ⟨0, _⟩ =>
    show (0 : ℕ) = if (1 : ℕ) = 1 then 0 else i.val
    rw [if_pos rfl]
  | ⟨1, _⟩ =>
    show w.val = if c = 1 then 0 else w.val
    split
    · have := w.isLt; omega
    · rfl
  | ⟨2, _⟩ =>
    show j.val = if b = 1 then 0 else j.val
    split
    · have := j.isLt; omega
    · rfl

/-- An `[a, b, c]` array read as `[n, c]` (its two leading axes taken as one) reads, at `(r, k)` with `r = i · b + j`,
    the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, w, c]` array read as `[a, b, w, c]` (its leading axis split in two) reads, at `(i, j, u, k)`, the operand at
    `(r, u, k)` with `r = i · b + j`. -/
theorem shapeCast_nwc_abwc_apply {a b w c n : ℕ} (x : (⟨3, ![n, w, c]⟩ : Shape).Idx → α)
    (h : (⟨3, ![n, w, c]⟩ : Shape).ShapeCasts ⟨4, ![a, b, w, c]⟩) (i : Fin a) (j : Fin b) (u : Fin w) (k : Fin c) (r : Fin n)
    (hr : r.val = i.val * b + j.val) : shapeCast ⟨4, ![a, b, w, c]⟩ x h (ix4 i j u k) = x (ix3 r u k) :=
  shapeCast_apply x h _ _ (by
    rw [Shape.rowMajor_val_three, Shape.rowMajor_val_four]
    show (r.val * w + u.val) * c + k.val = ((i.val * b + j.val) * w + u.val) * c + k.val
    rw [hr])

/-- A vector `[b]` placed as the one row of `[1, b]` reads, at `(u, j)`, the vector at `j`. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The one row `[1, b]` repeated to `[c, b]` reads, at `(w, j)`, the row at `j`. -/
theorem broadcastInDim_1b_cb_apply {b c : ℕ} (x : (⟨2, ![1, b]⟩ : Shape).Idx → α)
    (h : (⟨2, ![1, b]⟩ : Shape).BroadcastsInDim ⟨2, ![c, b]⟩ ![0, 1]) (w : Fin c) (j : Fin b) :
    broadcastInDim ⟨2, ![c, b]⟩ ![0, 1] h x (ix2 w j) = x (ix2 (0 : Fin 1) j) := by
  refine broadcastInDim_apply _ h x (ix2 w j) (ix2 (0 : Fin 1) j) fun ax => ?_
  match ax with
  | ⟨0, _⟩ =>
    show (0 : ℕ) = if (1 : ℕ) = 1 then 0 else w.val
    rw [if_pos rfl]
  | ⟨1, _⟩ =>
    show j.val = if b = 1 then 0 else j.val
    split
    · have := j.isLt; omega
    · rfl

end Cert.Lib.MidAxis
-- ==== Proof.LibRowsByCols.lean ====
/-
  A MATRIX PRODUCT OF THE LEFT OPERAND'S ROWS WITH THE RIGHT OPERAND'S COLUMNS, READ AT AN INDEX (general lemmas; they
  mention no program).

  Take dimension numbers of a product [M, K] × [K, N] → [M, N] that contract the left operand's axis 1 with the right
  operand's axis 0, keep the left axis 0 and the right axis 1, and have no batch axes: the plain x · w. The contraction
  index set has one axis of extent K, so it is Fin K; the left operand's index at result index (i, j) and contraction
  position k is (i, k), the right operand's is (k, j). Hence on the extended reals the vector unit's
  accumulate-into-zero product is, at (i, j), the finite sum over k of l (i, k) · r (k, j).
-/
import Idealize.ShloMosaic.PureOps.Ideal.Laws
import Idealize.ShloMosaic.Lib.ValueIdx

noncomputable section

open scoped BigOperators

namespace Cert.Lib.RowsByCols

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of x · w: contract left axis 1 with right axis 0, keep left axis 0 and right
    axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

end Cert.Lib.RowsByCols

end
-- ==== Proof.KernelBlock.lean ====
/-
  THE FUSED STEP'S OUTPUT ARRAY after the run, as `Spec.rowsG` of the three arrays the step is handed.

  The grid has 64 points; point t is handed token rows 128 t … 128 t + 127 (a [128, 768] block of the [8192, 768] token
  rows), the whole transposed hidden weight [768, 768] and the whole prepared width term [12, 768], and writes back the
  [128, 12, 768] block of rows 128 t … 128 t + 127 of the [8192, 12, 768] result. What it computes for row p of its
  block, width w and feature o is max (Σ_d rows (p, d) · weight (d, o) + width term (w, o), 0): the matrix product into
  a zero accumulator is that sum; the product's [128, 768] result is repeated along a new middle axis, the width term
  along a new leading axis. So block t of the result is block t of `rowsG`, the 64 blocks cover the 8192 rows, and the
  array ends holding `rowsG`.
-/
import proofs.«146661_j39599598469527_1_alg».proof.Proof.Gen.KernelIdeal.Frame
import proofs.«146661_j39599598469527_1_alg».proof.Proof.Spec
import proofs.«146661_j39599598469527_1_alg».proof.Proof.LibMidAxis
import proofs.«146661_j39599598469527_1_alg».proof.Proof.LibRowsByCols
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem
open Idealize.ShloMosaic.Pipeline (Dat)

namespace Cert.KernelIdeal.Rows

open Cert.KernelIdeal Cert.KernelIdeal.Gen Cert.Spec Cert.Lib

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The step's matrix product is the plain rows-by-columns one. -/
theorem plainDot : RowsByCols.Plain dot_S128x768_S768x768_S128x768_1_0_0_1_n_n := ⟨rfl, rfl, rfl, rfl, rfl, rfl⟩

/-! ## What the step computes from its three blocks, at an index -/

/-- Row `p`, width `w`, feature `o` of the stored block: the row against column `o` of the weight, plus the width term,
    clipped at zero. -/
theorem payload_apply (x0 : FVec Ideal S128x768 .f32) (x1 : FVec Ideal S768x768 .bf16) (x2 : FVec Ideal S12x768 .f32)
    (p : Fin 128) (w : Fin 12) (o : Fin 768) :
    k0_pay1 (F := Ideal) x0 x1 x2 (ix3 p w o)
      = max ((∑ d : Fin 768, x0 (ix2 p d) * x1 (ix2 d o)) + x2 (ix2 w o)) (Ideal.ofBits .f32 0x00000000#32) := by
  unfold k0_pay1
  rw [maximumf_apply, addf_apply]
  refine congrArg₂ max (congrArg₂ (· + ·) ?_ ?_) rfl
  · refine (MidAxis.broadcastTo_a1b_acb_apply _ _ p w o).trans ?_
    refine (MidAxis.shapeCast_ab_a1b_apply _ _ p 0 o).trans ?_
    refine (RowsByCols.matmul_zero_apply plainDot none _ _ (ix2 p o)).trans ?_
    refine Finset.sum_congr rfl fun d _ => ?_
    show (shapeCast S128x768 x0 _) (ix2 p d) * (shapeCast S768x768 x1 _) (ix2 d o) = _
    rw [shapeCast_self, shapeCast_self]
  · refine (MidAxis.broadcastTo_1cb_acb_apply _ _ p w o).trans ?_
    refine (shapeCast_ab_1ab_apply _ _ 0 w o).trans ?_
    rw [shapeCast_self]

/-! ## The three prepared arrays, and each point's blocks of them -/

/-- The token rows, the transposed hidden weight and the prepared width term, as the fused step finds them. -/
abbrev rowsArr (c : Dev nD) : FVec Ideal S8192x768 .f32 := V m c main_v10
abbrev weightArr (c : Dev nD) : FVec Ideal S768x768 .bf16 := V m c main_v9
abbrev widthArr (c : Dev nD) : FVec Ideal S12x768 .f32 := V m c main_v7

/-- The printed index maps, decided over the 64 points: the token rows and the result move one block of 128 rows per
    point; the weight and the width term stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Row `p` of point `t`'s block of token rows is row 128 t + p. -/
theorem rows_block (c : Dev nD) (t : Fin cfg0.N) (p : Fin 128) (d : Fin 768) (r : Fin 8192) (hr : r.val = t.val * 128 + p.val) :
    (iblk m c 0 t : FVec Ideal S128x768 .f32) (ix2 p d) = rowsArr m c (ix2 r d) := by
  obtain ⟨e0, e1, -⟩ := idx_facts t
  unfold iblk
  rw [View.read_apply]
  show V m c main_v10 _ = V m c main_v10 _
  congr 1
  funext a
  apply Fin.ext
  match a with
  | ⟨0, _⟩ => show win0_0.index t (0 : Fin 2) * 128 + 1 * p.val = r.val; rw [e0, hr]; omega
  | ⟨1, _⟩ => show win0_0.index t (1 : Fin 2) * 768 + 1 * d.val = d.val; rw [e1]; omega

/-- Every point's block of the weight is the whole weight. -/
theorem weight_block (c : Dev nD) (t : Fin cfg0.N) (d o : Fin 768) :
    (iblk m c 1 t : FVec Ideal S768x768 .bf16) (ix2 d o) = weightArr m c (ix2 d o) := by
  obtain ⟨-, -, e0, e1, -⟩ := idx_facts t
  unfold iblk
  rw [View.read_apply]
  show V m c main_v9 _ = V m c main_v9 _
  congr 1
  funext a
  apply Fin.ext
  match a with
  | ⟨0, _⟩ => show win0_1.index t (0 : Fin 2) * 768 + 1 * d.val = d.val; rw [e0]; omega
  | ⟨1, _⟩ => show win0_1.index t (1 : Fin 2) * 768 + 1 * o.val = o.val; rw [e1]; omega

/-- Every point's block of the width term is the whole width term. -/
theorem width_block (c : Dev nD) (t : Fin cfg0.N) (w : Fin 12) (o : Fin 768) :
    (iblk m c 2 t : FVec Ideal S12x768 .f32) (ix2 w o) = widthArr m c (ix2 w o) := by
  obtain ⟨-, -, -, -, e0, e1, -⟩ := idx_facts t
  unfold iblk
  rw [View.read_apply]
  show V m c main_v7 _ = V m c main_v7 _
  congr 1
  funext a
  apply Fin.ext
  match a with
  | ⟨0, _⟩ => show win0_2.index t (0 : Fin 2) * 12 + 1 * w.val = w.val; rw [e0]; omega
  | ⟨1, _⟩ => show win0_2.index t (1 : Fin 2) * 768 + 1 * o.val = o.val; rw [e1]; omega

/-! ## What a point writes back, and the array after the run -/

/-- Point `t` writes back block `t` of `rowsG` of the three prepared arrays. -/
theorem flushed_eq (c : Dev nD) (t : Fin cfg0.N) :
    (dats m 0 c).flushed 3 t
      = ((cfg0.win 3).blk t).view.read (Elt Ideal) (rowsG (rowsArr m c) (weightArr m c) (widthArr m c)) := by
  show (cfg0.win 3).cut (grid0.coords t) ((dats m 0 c).after 3 t) = _
  rw [after0_3]
  unfold out0_3
  rw [View.canon_unit_zero hz3]
  simp only [View.ld_unit_zero (S := S128x768) hz2, View.ld_unit_zero (S := S768x768) hz2, View.ld_unit_zero (S := S12x768) hz2]
  obtain ⟨-, -, -, -, -, -, e0, e1, e2⟩ := idx_facts t
  have ht : t.val < 64 := lt_of_lt_of_eq t.isLt (show cfg0.N = 64 from N_0)
  funext j
  obtain ⟨p, w, o, rfl⟩ : ∃ (p : Fin 128) (w : Fin 12) (o : Fin 768), j = ix3 p w o := ⟨j 0, j 1, j 2, eq_ix3 j⟩
  have hr : t.val * 128 + p.val < 8192 := by have := p.isLt; omega
  have hemb : ((cfg0.win 3).blk t).view.emb (ix3 p w o) = ix3 (⟨t.val * 128 + p.val, hr⟩ : Fin 8192) w o := by
    funext a
    apply Fin.ext
    match a with
    | ⟨0, _⟩ => show win0_3.index t (0 : Fin 3) * 128 + 1 * p.val = t.val * 128 + p.val; rw [e0]; omega
    | ⟨1, _⟩ => show win0_3.index t (1 : Fin 3) * 12 + 1 * w.val = w.val; rw [e1]; omega
    | ⟨2, _⟩ => show win0_3.index t (2 : Fin 3) * 768 + 1 * o.val = o.val; rw [e2]; omega
  show k0_pay1 (F := Ideal) (iblk m c 0 t) (iblk m c 1 t) (iblk m c 2 t) (ix3 p w o)
    = rowsG (rowsArr m c) (weightArr m c) (widthArr m c) (((cfg0.win 3).blk t).view.emb (ix3 p w o))
  rw [hemb]
  refine (payload_apply (iblk m c 0 t) (iblk m c 1 t) (iblk m c 2 t) p w o).trans ?_
  show _ = max ((∑ d : Fin 768, rowsArr m c (ix2 (⟨t.val * 128 + p.val, hr⟩ : Fin 8192) d) * weightArr m c (ix2 d o))
    + widthArr m c (ix2 w o)) (Ideal.ofBits .f32 0x00000000#32)
  rw [width_block m c t w o]
  refine congrArg (fun z => max (z + widthArr m c (ix2 w o)) (Ideal.ofBits .f32 0x00000000#32)) ?_
  refine Finset.sum_congr rfl fun d _ => ?_
  rw [rows_block m c t p d ⟨t.val * 128 + p.val, hr⟩ rfl, weight_block m c t d o]

/-- An index of the result is in point `t`'s block iff each coordinate is in the block's range on its axis. -/
theorem mem_block (t : Fin cfg0.N) (i : S8192x12x768.Idx) :
    i ∈ ((cfg0.win 3).blk t).view.set ↔ ∀ a : Fin 3, win0_3.index t a * S128x12x768.size a ≤ (i a).val
      ∧ (i a).val < win0_3.index t a * S128x12x768.size a + S128x12x768.size a := by
  show i ∈ ((View.whole main_v11).slice (win0_3.rect t)).set ↔ _
  rw [View.set_slice_whole, Rect.mem_set_unit]
  exact Iff.rfl

/-- Every row of the result is in the block of the point that numbers its group of 128 rows. -/
theorem covered (i : S8192x12x768.Idx) :
    ∃ t : Fin cfg0.N, (cfg0.win 3).flush t = true ∧ i ∈ ((cfg0.win 3).blk t).view.set := by
  have h0 : (i 0).val < 8192 := (i 0).isLt
  have h1 : (i 1).val < 12 := (i 1).isLt
  have h2 : (i 2).val < 768 := (i 2).isLt
  obtain ⟨t, ht⟩ : ∃ t : Fin cfg0.N, t.val = (i 0).val / 128 :=
    ⟨⟨(i 0).val / 128, by rw [show cfg0.N = 64 from N_0]; omega⟩, rfl⟩
  obtain ⟨-, -, -, -, -, -, e0, e1, e2⟩ := idx_facts t
  refine ⟨t, flush0_3 t, ?_⟩
  rw [mem_block]
  intro a
  match a with
  | ⟨0, _⟩ =>
    show win0_3.index t (0 : Fin 3) * 128 ≤ (i 0).val ∧ (i 0).val < win0_3.index t (0 : Fin 3) * 128 + 128
    rw [e0, ht]; omega
  | ⟨1, _⟩ =>
    show win0_3.index t (1 : Fin 3) * 12 ≤ (i 1).val ∧ (i 1).val < win0_3.index t (1 : Fin 3) * 12 + 12
    rw [e1]; omega
  | ⟨2, _⟩ =>
    show win0_3.index t (2 : Fin 3) * 768 ≤ (i 2).val ∧ (i 2).val < win0_3.index t (2 : Fin 3) * 768 + 768
    rw [e2]; omega

/-- THE RESULT ARRAY after the run is `rowsG` of the three prepared arrays. -/
theorem final (c : Dev nD) :
    (dats m 0 c).arrAt 3 cfg0.N = rowsG (rowsArr m c) (weightArr m c) (widthArr m c) :=
  (dats m 0 c).arrAt_eq_of_cover 3 _ (fun t _ => flushed_eq m c t) covered

end Cert.KernelIdeal.Rows

end
-- ==== Proof.Bridge.lean ====
/-
  FROM THE PREPARED INPUTS OF THE FUSED STEP BACK TO THE ARGUMENTS (pure: no program is mentioned).

  The fused step (`Spec.rowsG`) is handed three prepared arrays. Read at an index each is an entry, or a sum of entries,
  of the arguments:
    • the token rows: `h` with its two leading axes taken as one, row s · 1024 + l is token (s, l);
    • the transposed hidden weight: columns 0 … 767 of `W` cut out, transposed, and changed in float format (the
      identity on extended reals): entry (d, o) is W (o, d);
    • the width term: the width table times the transposed width part of `W` (columns 768 … 895), entry (w, o) the sum
      over k of q (w, k) · W (o, 768 + k), plus the bias placed as a row and repeated: entry (w, o) is `qPart` + b o.
  Reading the step's [8192, 12, 768] result as [8, 1024, 12, 768] and regrouping the sum gives `Spec.G`.
-/
import proofs.«146661_j39599598469527_1_alg».proof.Proof.Spec
import proofs.«146661_j39599598469527_1_alg».proof.Proof.LibMidAxis
import proofs.«146661_j39599598469527_1_alg».proof.Proof.LibRowsByCols
import Idealize.ShloMosaic.Lib.ValueLayout
import Idealize.ShloMosaic.PureOps.Ideal.Laws

noncomputable section

open scoped BigOperators

namespace Cert.Bridge

open Idealize.ShloMosaic Idealize.ShloMosaic.ValueIdx Cert.Spec Cert.Lib

/-- Entry (d, o) of the transposed hidden weight is W (o, d). -/
theorem hiddenWeight_apply (W : FVec Ideal (⟨2, ![768, 896]⟩ : Shape) .f32)
    (hs : (⟨2, ![768, 896]⟩ : Shape).Slices ![0, 0] ⟨2, ![768, 768]⟩)
    (ht : (⟨2, ![768, 768]⟩ : Shape).Transposes [1, 0] ⟨2, ![768, 768]⟩) (hb : FTy.bf16.bits < FTy.f32.bits)
    (d o : Fin 768) :
    (truncf .bf16 (transpose ⟨2, ![768, 768]⟩ [1, 0] (extractStridedSlice ⟨2, ![768, 768]⟩ ![0, 0] W hs) ht) hb :
        FVec Ideal (⟨2, ![768, 768]⟩ : Shape) .bf16) (ix2 d o) = W (ix2 o (colH d)) := by
  rw [truncf_apply, transpose_ix2_apply]
  exact slice2_axis1_apply 0 W hs o d (colH d) (Nat.zero_add _).symm

/-- Entry (k, o) of the transposed width part of the weight is W (o, 768 + k). -/
theorem widthWeight_apply (W : FVec Ideal (⟨2, ![768, 896]⟩ : Shape) .f32)
    (hs : (⟨2, ![768, 896]⟩ : Shape).Slices ![0, 768] ⟨2, ![768, 128]⟩)
    (ht : (⟨2, ![768, 128]⟩ : Shape).Transposes [1, 0] ⟨2, ![128, 768]⟩) (k : Fin 128) (o : Fin 768) :
    transpose ⟨2, ![128, 768]⟩ [1, 0] (extractStridedSlice ⟨2, ![768, 128]⟩ ![0, 768] W hs) ht (ix2 k o) = W (ix2 o (colQ k)) := by
  rw [transpose_ix2_apply]
  exact slice2_axis1_apply 768 W hs o k (colQ k) rfl

/-- Entry (w, o) of the prepared width term: the width row against the weight's width part, plus the bias. -/
theorem widthTerm_apply (q : FVec Ideal (⟨2, ![12, 128]⟩ : Shape) .f32) (W : FVec Ideal (⟨2, ![768, 896]⟩ : Shape) .f32)
    (b : FVec Ideal (⟨1, ![768]⟩ : Shape) .f32)
    (D : DotDims (⟨2, ![12, 128]⟩ : Shape) (⟨2, ![128, 768]⟩ : Shape) (⟨2, ![12, 768]⟩ : Shape)) (hD : RowsByCols.Plain D)
    (hs : (⟨2, ![768, 896]⟩ : Shape).Slices ![0, 768] ⟨2, ![768, 128]⟩)
    (ht : (⟨2, ![768, 128]⟩ : Shape).Transposes [1, 0] ⟨2, ![128, 768]⟩)
    (h1 : (⟨1, ![768]⟩ : Shape).BroadcastsInDim ⟨2, ![1, 768]⟩ ![1])
    (h2 : (⟨2, ![1, 768]⟩ : Shape).BroadcastsInDim ⟨2, ![12, 768]⟩ ![0, 1]) (w : Fin 12) (o : Fin 768) :
    addf (Host.dotGeneral D none q (transpose ⟨2, ![128, 768]⟩ [1, 0] (extractStridedSlice ⟨2, ![768, 128]⟩ ![0, 768] W hs) ht))
        (broadcastInDim ⟨2, ![12, 768]⟩ ![0, 1] h2 (broadcastInDim ⟨2, ![1, 768]⟩ ![1] h1 b)) (ix2 w o)
      = qPart q W w o + b (ix1 o) := by
  rw [addf_apply, MidAxis.broadcastInDim_1b_cb_apply, MidAxis.broadcastInDim_b_1b_apply]
  refine congrArg (· + b (ix1 o)) ?_
  show FloatOps.dotGeneral D none .single q _ (ix2 w o) = _
  rw [Ideal.dotGeneral_apply, RowsByCols.sum_eq hD]
  unfold qPart
  refine Finset.sum_congr rfl fun k _ => ?_
  rw [widthWeight_apply]

/-- The fused step's result read as [8, 1024, 12, 768], over prepared inputs that are what the three lemmas above say,
    is `Spec.G`: the token row s · 1024 + l is token (s, l), and the bias moves from the width term to the end of the sum. -/
theorem result_eq (h : FVec Ideal (⟨3, ![8, 1024, 768]⟩ : Shape) .f32) (q : FVec Ideal (⟨2, ![12, 128]⟩ : Shape) .f32)
    (W : FVec Ideal (⟨2, ![768, 896]⟩ : Shape) .f32) (b : FVec Ideal (⟨1, ![768]⟩ : Shape) .f32)
    (X : (⟨2, ![8192, 768]⟩ : Shape).Idx → EReal) (Wt : (⟨2, ![768, 768]⟩ : Shape).Idx → EReal)
    (QB : (⟨2, ![12, 768]⟩ : Shape).Idx → EReal)
    (hX : ∀ (s : Fin 8) (l : Fin 1024) (d : Fin 768) (r : Fin 8192), r.val = s.val * 1024 + l.val → X (ix2 r d) = h (ix3 s l d))
    (hWt : ∀ d o : Fin 768, Wt (ix2 d o) = W (ix2 o (colH d)))
    (hQB : ∀ (w : Fin 12) (o : Fin 768), QB (ix2 w o) = qPart q W w o + b (ix1 o))
    (hc : (⟨3, ![8192, 12, 768]⟩ : Shape).ShapeCasts ⟨4, ![8, 1024, 12, 768]⟩) :
    shapeCast ⟨4, ![8, 1024, 12, 768]⟩ (rowsG X Wt QB) hc = G h q W b := by
  funext i
  obtain ⟨s, l, w, o, rfl⟩ : ∃ (s : Fin 8) (l : Fin 1024) (w : Fin 12) (o : Fin 768), i = ix4 s l w o :=
    ⟨i 0, i 1, i 2, i 3, eq_ix4 i⟩
  have hr : s.val * 1024 + l.val < 8192 := by have := s.isLt; have := l.isLt; omega
  rw [MidAxis.shapeCast_nwc_abwc_apply (rowsG X Wt QB) hc s l w o ⟨s.val * 1024 + l.val, hr⟩ rfl]
  show max ((∑ d : Fin 768, X (ix2 ⟨s.val * 1024 + l.val, hr⟩ d) * Wt (ix2 d o)) + QB (ix2 w o)) _
    = max (hPart h W s l o + qPart q W w o + b (ix1 o)) _
  rw [hQB, regroup]
  refine congrArg (fun z => max (z + qPart q W w o + b (ix1 o)) _) ?_
  unfold hPart
  refine Finset.sum_congr rfl fun d _ => ?_
  rw [hX s l d _ rfl, hWt]

end Cert.Bridge

end
-- ==== Proof.KernelRun.lean ====
/-
  THE KERNEL PROGRAM'S RESULT, as `Spec.G` of its four arguments.

  Before the fused step the program prepares its three inputs from the arguments: the token rows are `h` with its two
  leading axes taken as one; the transposed hidden weight is columns 0 … 767 of `W`, transposed; the width term is the
  width table (the regrouped `query_seg`) times the transposed columns 768 … 895 of `W`, plus the bias repeated over
  the 12 widths. After the step its [8192, 12, 768] result is read as [8, 1024, 12, 768]. The step's array is
  `Spec.rowsG` of the prepared inputs; read at an index through those preparations it is `Spec.G`, the bias moving
  from the width term to the end of the sum.
-/
import proofs.«146661_j39599598469527_1_alg».proof.Proof.KernelBlock
import proofs.«146661_j39599598469527_1_alg».proof.Proof.Bridge
import Idealize.ShloMosaic.Lib.StableHlo.Run

noncomputable section

open scoped BigOperators
open Idealize.ShloMosaic Idealize.ShloMosaic.TcCoe Idealize.ShloMosaic.ValueIdx Idealize.SL.Sem Idealize.ShloMosaic.StableHlo

namespace Cert.KernelIdeal.Whole

open Cert.KernelIdeal Cert.KernelIdeal.Gen Cert.Spec Cert.Lib

variable (m : (ℓ : Loc nD τ sig) → Buf (Elt Ideal) ℓ) (ρ : Dev nD → PrngReg)

/-- The four arguments on core `c`, and the width table: `query_seg` [128, 12] regrouped row-major as [12, 128]. -/
abbrev hArg (c : Dev nD) : FVec Ideal S8x1024x768 .f32 := m ((c : Thread nD τ).loc main_arg0)
abbrev qArg (c : Dev nD) : FVec Ideal S128x12 .f32 := m ((c : Thread nD τ).loc main_arg1)
abbrev wArg (c : Dev nD) : FVec Ideal S768x896 .f32 := m ((c : Thread nD τ).loc main_arg2)
abbrev bArg (c : Dev nD) : FVec Ideal S768 .f32 := m ((c : Thread nD τ).loc main_arg3)
abbrev widthTable (c : Dev nD) : FVec Ideal S12x128 .f32 := shapeCast S12x128 (qArg m c) shapeCasts_S128x12_S12x128

/-! ## The three prepared arrays as terms of the arguments -/

theorem rowsArr_eq (c : Dev nD) :
    Rows.rowsArr m c = shapeCast S8192x768 (hArg m c) shapeCasts_S8x1024x768_S8192x768 := by
  show StableHlo.after hostOps0 (fun b => m (c, b)) (Proc.devRef .tc main_v10) = _
  after_results <;> rfl

theorem weightArr_eq (c : Dev nD) :
    Rows.weightArr m c = truncf .bf16 (transpose S768x768 [1, 0]
      (extractStridedSlice S768x768 ![0, 0] (wArg m c) slices_S768x896_S768x768_0_0) transposes_S768x768_S768x768_1_0) bitsLt_bf16_f32 := by
  show StableHlo.after hostOps0 (fun b => m (c, b)) (Proc.devRef .tc main_v9) = _
  after_results <;> rfl

theorem widthArr_eq (c : Dev nD) :
    Rows.widthArr m c = addf (Host.dotGeneral dot_S12x128_S128x768_S12x768_1_0_0_1_n_n none (widthTable m c)
        (transpose S128x768 [1, 0] (extractStridedSlice S768x128 ![0, 768] (wArg m c) slices_S768x896_S768x128_0_768) transposes_S768x128_S128x768_1_0))
      (broadcastInDim S12x768 ![0, 1] bcast_S1x768_S12x768_0_1 (broadcastInDim S1x768 ![1] bcast_S768_S1x768_1 (bArg m c))) := by
  show StableHlo.after hostOps0 (fun b => m (c, b)) (Proc.devRef .tc main_v7) = _
  after_results <;> rfl

/-- The width term's matrix product is the plain rows-by-columns one. -/
theorem plainWidthDot : RowsByCols.Plain dot_S12x128_S128x768_S12x768_1_0_0_1_n_n := ⟨rfl, rfl, rfl, rfl, rfl, rfl⟩

/-! ## Each read at an index -/

theorem rows_apply (c : Dev nD) (s : Fin 8) (l : Fin 1024) (d : Fin 768) (r : Fin 8192) (hr : r.val = s.val * 1024 + l.val) :
    Rows.rowsArr m c (ix2 r d) = hArg m c (ix3 s l d) := by
  rw [rowsArr_eq]
  exact MidAxis.shapeCast_abc_nc_apply (hArg m c) shapeCasts_S8x1024x768_S8192x768 s l d r hr

theorem weight_apply (c : Dev nD) (d o : Fin 768) : Rows.weightArr m c (ix2 d o) = wArg m c (ix2 o (colH d)) := by
  rw [weightArr_eq]
  exact Bridge.hiddenWeight_apply (wArg m c) slices_S768x896_S768x768_0_0 transposes_S768x768_S768x768_1_0 bitsLt_bf16_f32 d o

theorem width_apply (c : Dev nD) (w : Fin 12) (o : Fin 768) :
    Rows.widthArr m c (ix2 w o) = qPart (widthTable m c) (wArg m c) w o + bArg m c (ix1 o) := by
  rw [widthArr_eq]
  exact Bridge.widthTerm_apply (widthTable m c) (wArg m c) (bArg m c) dot_S12x128_S128x768_S12x768_1_0_0_1_n_n plainWidthDot
    slices_S768x896_S768x128_0_768 transposes_S768x128_S128x768_1_0 bcast_S768_S1x768_1 bcast_S1x768_S12x768_0_1 w o

/-! ## The result after the line that follows the region -/

/-- What the program's result buffer holds after the run. -/
theorem result_eq (c : Dev nD) :
    Pipeline.afterTail₀ cfgs (dats m) 0 (V0 m) [hostOps1] c main_v12
      = G (hArg m c) (widthTable m c) (wArg m c) (bArg m c) := by
  have harr : Pipeline.withArrays spec0 c (V0 m c) (fun w => (dats m 0 c).arrAt w cfg0.N) (Proc.devRef .tc main_v11)
      = rowsG (Rows.rowsArr m c) (Rows.weightArr m c) (Rows.widthArr m c) :=
    (Pipeline.withArrays_arr spec0 launch0.win.arr_inj c _ _ 3).trans (Rows.final m c)
  unfold Pipeline.afterTail₀
  show StableHlo.after hostOps1 _ (Proc.devRef .tc main_v12) = _
  after_results
  refine (congrArg (fun x => shapeCast S8x1024x12x768 x shapeCasts_S8192x12x768_S8x1024x12x768) harr).trans ?_
  exact Bridge.result_eq (hArg m c) (widthTable m c) (wArg m c) (bArg m c) _ _ _
    (rows_apply m c) (weight_apply m c) (width_apply m c) shapeCasts_S8192x12x768_S8x1024x12x768

/-- THE RUN: every weakly fair execution terminates with the result at `G` of the arguments and the arguments unchanged. -/
theorem run : θ_run defs (onTc (τ := τ) (main (F := Ideal))) ⟨m, fun _ => 0, ρ⟩ fun r => ∀ c : Dev nD,
      r.2.mem ((c : Thread nD τ).loc main_v12) = G (hArg m c) (widthTable m c) (wArg m c) (bArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v12 (Pipeline.mem_restRefs_of main_v12 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Whole

end
-- ==== Proof.RefValue.lean ====
/-
  THE REFERENCE'S RESULT, as `Spec.G` of its four arguments.

  The reference contracts the hidden states with columns 0 … 767 of `W` (token (s, l), feature o: the sum over d of
  h (s, l, d) · W (o, d)), contracts the width table with columns 768 … 895 of `W`, places both in [8, 1024, 12, 768]
  over the missing axes, adds them, adds the bias last, and clips at zero. Read one operation at a time that is `G`
  as it stands; no regrouping is needed on this side.
-/
import proofs.«146661_j39599598469527_1_alg».proof.Proof.Gen.ReferenceIdeal.Read
import proofs.«146661_j39599598469527_1_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Spec

/-- The reference's last stage is `G` of the arguments, the width table being `query_seg` regrouped as [12, 128]. -/
theorem result_eq (h : FVec Ideal S8x1024x768 .f32) (q : FVec Ideal S128x12 .f32) (W : FVec Ideal S768x896 .f32)
    (b : FVec Ideal S768 .f32) :
    val_main_v13 (F := Ideal) h q W b = G h (shapeCast S12x128 q shapeCasts_S128x12_S12x128) W b := by
  funext i
  obtain ⟨s, l, w, o, rfl⟩ : ∃ (s : Fin 8) (l : Fin 1024) (w : Fin 12) (o : Fin 768), i = ix4 s l w o :=
    ⟨i 0, i 1, i 2, i 3, eq_ix4 i⟩
  rw [val_main_v13_apply, val_main_v12_apply, val_main_v9_apply, val_main_v7_apply, val_main_v5_apply, val_main_v3_apply,
    val_main_v8_apply, val_main_v6_apply, val_main_v4_apply, val_main_v11_apply, val_main_v10_apply,
    val_main_call0_v0_apply, val_main_call0_cst_apply]
  show max ((∑ k : Fin 768, h _ * val_main_v1 (F := Ideal) W _) + (∑ k : Fin 128, val_main_v0 (F := Ideal) q _ * val_main_v2 (F := Ideal) W _) + b _) _
    = max (hPart h W s l o + qPart (shapeCast S12x128 q shapeCasts_S128x12_S12x128) W w o + b (ix1 o)) _
  refine congrArg₂ max (congrArg₂ (· + ·) (congrArg₂ (· + ·) ?_ ?_) ?_) rfl
  · unfold hPart
    refine Finset.sum_congr rfl fun d _ => ?_
    rw [val_main_v1_apply]
    refine congrArg₂ (· * ·) (congrArg h ?_) (congrArg W ?_)
    · funext a; apply Fin.ext
      match a with
      | ⟨0, _⟩ => rfl
      | ⟨1, _⟩ => rfl
      | ⟨2, _⟩ => rfl
    · funext a; apply Fin.ext
      match a with
      | ⟨0, _⟩ => rfl
      | ⟨1, _⟩ => rfl
  · unfold qPart
    refine Finset.sum_congr rfl fun k _ => ?_
    rw [val_main_v2_apply]
    refine congrArg₂ (· * ·) ?_ (congrArg W ?_)
    · show shapeCast S12x128 q shapeCasts_S128x12_S12x128 _ = shapeCast S12x128 q shapeCasts_S128x12_S12x128 _
      refine congrArg _ ?_
      funext a; apply Fin.ext
      match a with
      | ⟨0, _⟩ => rfl
      | ⟨1, _⟩ => rfl
    · funext a; apply Fin.ext
      match a with
      | ⟨0, _⟩ => rfl
      | ⟨1, _⟩ => rfl
  · refine congrArg b ?_
    funext a; apply Fin.ext
    match a with
    | ⟨0, _⟩ => rfl

end Cert.ReferenceIdeal.RefValue

end
-- ==== Proof.lean ====
/-
  The certificate's five claims for a dense layer over spans: a linear layer over the concatenation of a token's
  hidden state and a width embedding, then a ReLU, for every token and every one of 12 widths.

  Both programs split the layer: out (s, l, w, o) = max (Σ_d h (s, l, d) · W (o, d) + Σ_k q (w, k) · W (o, 768 + k) + b o, 0),
  with q the width table (`query_seg` regrouped row-major as [12, 128]). The reference computes the two contractions,
  adds them and adds the bias last. The kernel program prepares the width term WITH the bias already added, and its
  fused step computes, for a block of 128 tokens at a time, the hidden contraction as a matrix product against the
  transposed weight, adds the prepared width term and clips at zero. Over the extended reals the two differ only in the
  grouping x + (y + z) against (x + y) + z of a sum, which is associativity of addition: no finiteness of the inputs is
  used. The float-format changes of the kernel program are the identity there, and the zero under the maximum is the
  same word on both sides.

  Frames: the two kernel programs run by the generated frame of the one fused step; the reference by its generated run.
  The kernel program's value is read off that frame run (Proof/KernelBlock.lean: the step's array; Proof/KernelRun.lean:
  the lines around it), the reference's off its generated run one operation at a time (Proof/RefValue.lean); both are
  `Spec.G` (Proof/Spec.lean) of the arguments. The idealization rewrote nothing, so `preserves` is trivial.
-/
import proofs.«146661_j39599598469527_1_alg».proof.Defs
import proofs.«146661_j39599598469527_1_alg».proof.Proof.Gen.Kernel
import proofs.«146661_j39599598469527_1_alg».proof.Proof.Gen.Kernel.Skeleton
import proofs.«146661_j39599598469527_1_alg».proof.Proof.Gen.Kernel.Launch
import proofs.«146661_j39599598469527_1_alg».proof.Proof.Gen.Kernel.Points
import proofs.«146661_j39599598469527_1_alg».proof.Proof.Gen.Kernel.Frame
import proofs.«146661_j39599598469527_1_alg».proof.Proof.Gen.KernelIdeal
import proofs.«146661_j39599598469527_1_alg».proof.Proof.Gen.KernelIdeal.Skeleton
import proofs.«146661_j39599598469527_1_alg».proof.Proof.Gen.KernelIdeal.Launch
import proofs.«146661_j39599598469527_1_alg».proof.Proof.Gen.KernelIdeal.Points
import proofs.«146661_j39599598469527_1_alg».proof.Proof.Gen.KernelIdeal.Frame
import proofs.«146661_j39599598469527_1_alg».proof.Proof.Gen.ReferenceIdeal
import proofs.«146661_j39599598469527_1_alg».proof.Proof.Gen.Pre_finite_inputs
import proofs.«146661_j39599598469527_1_alg».proof.Proof.Gen.ReferenceIdeal.Run
import proofs.«146661_j39599598469527_1_alg».proof.Proof.Gen.ReferenceIdeal.Read
import proofs.«146661_j39599598469527_1_alg».proof.Proof.KernelRun
import proofs.«146661_j39599598469527_1_alg».proof.Proof.RefValue
import Idealize.ShloMosaic.Adequacy
import Idealize.ShloMosaic.Init

noncomputable section

namespace Cert.Proof

open Idealize.ShloMosaic Idealize.SL.Sem

/-- The word-level kernel program runs, faults nowhere and leaves its arguments as they were: the generated frame. -/
theorem frame_kernel : Cert.frame_Kernel := fun m ρ _ => Cert.Kernel.Gen.frame m ρ

/-- The same of the idealized kernel program. -/
theorem frame_kernelIdeal : Cert.frame_KernelIdeal := fun m ρ _ => Cert.KernelIdeal.Gen.frame m ρ

/-- The reference runs and leaves its arguments as they were: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result at `Spec.G` of those arguments. -/
theorem algebraic : Cert.algebraic_KernelIdeal_ReferenceIdeal := by
  intro m ρ m' ρ' _ hagree
  refine ⟨fun c => Cert.Spec.G (Cert.KernelIdeal.Whole.hArg m c) (Cert.KernelIdeal.Whole.widthTable m c)
    (Cert.KernelIdeal.Whole.wArg m c) (Cert.KernelIdeal.Whole.bArg m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
